-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2x2x256 : Shape := ⟨4, ![131072, 2, 2, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S131072x2x2x256 : S_.BroadcastsInDim S131072x2x2x256 (![] : Fin 0 → Fin S131072x2x2x256.rank)
  reducesTo_S131072x2x2x256_S_d0_1_2_3 : S131072x2x2x256.ReducesTo [0, 1, 2, 3] S_
  h_S_ : 0 < S_.numel
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S131072x2x2x256 .f32) (main_arg1 : FVec F S256x768 .f32) (main_arg2 : FVec F S768 .f32) (main_arg3 : FVec F S256x256 .f32) (main_arg4 : FVec F S256 .f32) (main_arg5 : FVec F S256 .f32) (main_arg6 : FVec F S256 .f32) : IVec S_ 1 :=
  let main_v0 : FVec F S131072x2x2x256 .f32 := Host.absf main_arg0
  let main_cst : FVec F S_ .f32 := constant S_ .f32 0x7F800000#32
  let main_v1 : FVec F S131072x2x2x256 .f32 := broadcastInDim S131072x2x2x256 ![] bcast_S_S131072x2x2x256 main_cst
  let main_v2 : IVec S131072x2x2x256 1 := cmpf .olt main_v0 main_v1
  let main_c : IVec S_ 1 := constantI S_ 1 1#1
  let main_v3 : IVec S_ 1 := (fun x v => Host.reduce IntOp.andi x v reducesTo_S131072x2x2x256_S_d0_1_2_3 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S131072x2x2x256 : Shape := ⟨4, ![131072, 2, 2, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S131072x2x256 : Shape := ⟨3, ![131072, 2, 256]⟩
abbrev S1024x2x2x256 : Shape := ⟨4, ![1024, 2, 2, 256]⟩
abbrev S1024x2x256 : Shape := ⟨3, ![1024, 2, 256]⟩
abbrev S1024x1x1x256 : Shape := ⟨4, ![1024, 1, 1, 256]⟩
abbrev S1024x256 : Shape := ⟨2, ![1024, 256]⟩
abbrev S1024x768 : Shape := ⟨2, ![1024, 768]⟩
abbrev S1x768 : Shape := ⟨2, ![1, 768]⟩
abbrev S1x256 : Shape := ⟨2, ![1, 256]⟩
abbrev S1024 : Shape := ⟨1, ![1024]⟩
abbrev S1024x1 : Shape := ⟨2, ![1024, 1]⟩
abbrev S1024x1x256 : Shape := ⟨3, ![1024, 1, 256]⟩

abbrev nBuf : Space → Nat
  | .hbm => 10
  | .vmem => 10
  | .smem => 0
  | _ => 0

abbrev bufTy : (tb : Table) → Fin (tcTables nBuf tb) → BufTy
  | .hbm, ⟨0, _⟩ => ⟨S131072x2x2x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x768, .bf16⟩
  | .hbm, ⟨8, _⟩ => ⟨S256x256, .bf16⟩
  | .hbm, ⟨9, _⟩ => ⟨S131072x2x256, .f32⟩
  | .local _ .vmem, ⟨0, _⟩ => ⟨S1024x2x2x256, .f32⟩
  | .local _ .vmem, ⟨1, _⟩ => ⟨S1024x2x2x256, .f32⟩
  | .local _ .vmem, ⟨2, _⟩ => ⟨S256x768, .bf16⟩
  | .local _ .vmem, ⟨3, _⟩ => ⟨S768, .f32⟩
  | .local _ .vmem, ⟨4, _⟩ => ⟨S256x256, .bf16⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S1024x2x256, .f32⟩
  | .local _ .vmem, ⟨9, _⟩ => ⟨S1024x2x256, .f32⟩
  | _, _ => ⟨S131072x2x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S1024x2x2x256_S1024x1x1x256_0_0_0_0 : ∀ a, (![0, 0, 0, 0] : Fin 4 → Nat) a + S1024x1x1x256.size a ≤ S1024x2x2x256.size a
  h_S1024x1x1x256 : 0 < S1024x1x1x256.numel
  shapeCasts_S1024x1x1x256_S1024x256 : S1024x1x1x256.ShapeCasts S1024x256
  inb_S1024x2x2x256_S1024x1x1x256_0_1_0_0 : ∀ a, (![0, 1, 0, 0] : Fin 4 → Nat) a + S1024x1x1x256.size a ≤ S1024x2x2x256.size a
  inb_S1024x2x2x256_S1024x1x1x256_0_0_1_0 : ∀ a, (![0, 0, 1, 0] : Fin 4 → Nat) a + S1024x1x1x256.size a ≤ S1024x2x2x256.size a
  inb_S1024x2x2x256_S1024x1x1x256_0_1_1_0 : ∀ a, (![0, 1, 1, 0] : Fin 4 → Nat) a + S1024x1x1x256.size a ≤ S1024x2x2x256.size a
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x2x256_S1024x1x256_0_0_0 : ∀ a, (![0, 0, 0] : Fin 3 → Nat) a + S1024x1x256.size a ≤ S1024x2x256.size a
  h_S1024x1x256 : 0 < S1024x1x256.numel
  shapeCasts_S1024x1x256_S1024x256 : S1024x1x256.ShapeCasts S1024x256
  shapeCasts_S1024x256_S1024x1x256 : S1024x256.ShapeCasts S1024x1x256
  inb_S1024x2x256_S1024x1x256_0_1_0 : ∀ a, (![0, 1, 0] : Fin 3 → Nat) a + S1024x1x256.size a ≤ S1024x2x256.size a
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x2x256.size a ≤ S131072x2x2x256.size a
  hwx0_0 : ∀ i : grid0.Coords, EltTy.bits .f32 = 32 ∨ (Rect.block (s := S131072x2x2x256) S1024x2x2x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2x256.size a ≤ S131072x2x256.size a
  hwx0_7 : ∀ i : grid0.Coords, EltTy.bits .f32 = 32 ∨ (Rect.block (s := S131072x2x256) S1024x2x256.size (cc0_transform_7 i) (hinb0_7 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x2x2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x2x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x2x2x256 : Shape := ⟨4, ![131072, 2, 2, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S131072x2x1x256 : Shape := ⟨4, ![131072, 2, 1, 256]⟩
abbrev S131072x2x256 : Shape := ⟨3, ![131072, 2, 256]⟩
abbrev S_ : Shape := ⟨0, ![]⟩
abbrev S131072x256 : Shape := ⟨2, ![131072, 256]⟩
abbrev S131072x768 : Shape := ⟨2, ![131072, 768]⟩
abbrev S1x768 : Shape := ⟨2, ![1, 768]⟩
abbrev S1x1x256 : Shape := ⟨3, ![1, 1, 256]⟩
abbrev S131072 : Shape := ⟨1, ![131072]⟩
abbrev S131072x1 : Shape := ⟨2, ![131072, 1]⟩
abbrev S1x256 : Shape := ⟨2, ![1, 256]⟩
abbrev S131072x1x256 : Shape := ⟨3, ![131072, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S131072x2x2x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S131072x2x1x256, .f32⟩
  | .hbm, ⟨8, _⟩ => ⟨S131072x2x256, .f32⟩
  | .hbm, ⟨9, _⟩ => ⟨S131072x2x1x256, .f32⟩
  | .hbm, ⟨10, _⟩ => ⟨S131072x2x256, .f32⟩
  | .hbm, ⟨11, _⟩ => ⟨S_, .f32⟩
  | .hbm, ⟨12, _⟩ => ⟨S131072x256, .f32⟩
  | .hbm, ⟨13, _⟩ => ⟨S131072x768, .f32⟩
  | .hbm, ⟨14, _⟩ => ⟨S1x768, .f32⟩
  | .hbm, ⟨15, _⟩ => ⟨S131072x768, .f32⟩
  | .hbm, ⟨16, _⟩ => ⟨S131072x768, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x2x256, .f32⟩
  | .hbm, ⟨38, _⟩ => ⟨S1x1x256, .f32⟩
  | .hbm, ⟨39, _⟩ => ⟨S131072x2x256, .f32⟩
  | .hbm, ⟨40, _⟩ => ⟨S131072x2x256, .f32⟩
  | .hbm, ⟨41, _⟩ => ⟨S131072x2x256, .f32⟩
  | .hbm, ⟨42, _⟩ => ⟨S131072x2x256, .f32⟩
  | .hbm, ⟨43, _⟩ => ⟨S_, .f32⟩
  | .hbm, ⟨44, _⟩ => ⟨S131072x2x256, .f32⟩
  | .hbm, ⟨45, _⟩ => ⟨S131072x2x256, .f32⟩
  | .hbm, ⟨46, _⟩ => ⟨S_, .f32⟩
  | .hbm, ⟨47, _⟩ => ⟨S131072x2x256, .f32⟩
  | .hbm, ⟨48, _⟩ => ⟨S131072x2x256, .f32⟩
  | .hbm, ⟨49, _⟩ => ⟨S131072x256, .f32⟩
  | .hbm, ⟨50, _⟩ => ⟨S131072x2x256, .f32⟩
  | .hbm, ⟨51, _⟩ => ⟨S_, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072, .f32⟩
  | .hbm, ⟨56, _⟩ => ⟨S131072x1, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S_, .f32⟩
  | .hbm, ⟨64, _⟩ => ⟨S131072, .f32⟩
  | .hbm, ⟨65, _⟩ => ⟨S131072x1, .f32⟩
  | .hbm, ⟨66, _⟩ => ⟨S_, .f32⟩
  | .hbm, ⟨67, _⟩ => ⟨S131072x1, .f32⟩
  | .hbm, ⟨68, _⟩ => ⟨S131072x1, .f32⟩
  | .hbm, ⟨69, _⟩ => ⟨S131072x256, .f32⟩
  | .hbm, ⟨70, _⟩ => ⟨S131072x256, .f32⟩
  | .hbm, ⟨71, _⟩ => ⟨S_, .f32⟩
  | .hbm, ⟨72, _⟩ => ⟨S131072x1, .f32⟩
  | .hbm, ⟨73, _⟩ => ⟨S131072x1, .f32⟩
  | .hbm, ⟨74, _⟩ => ⟨S131072x1, .f32⟩
  | .hbm, ⟨75, _⟩ => ⟨S131072x256, .f32⟩
  | .hbm, ⟨76, _⟩ => ⟨S131072x256, .f32⟩
  | .hbm, ⟨77, _⟩ => ⟨S1x256, .f32⟩
  | .hbm, ⟨78, _⟩ => ⟨S131072x256, .f32⟩
  | .hbm, ⟨79, _⟩ => ⟨S131072x256, .f32⟩
  | .hbm, ⟨80, _⟩ => ⟨S1x256, .f32⟩
  | .hbm, ⟨81, _⟩ => ⟨S131072x256, .f32⟩
  | .hbm, ⟨82, _⟩ => ⟨S131072x256, .f32⟩
  | .hbm, ⟨83, _⟩ => ⟨S131072x256, .f32⟩
  | .hbm, ⟨84, _⟩ => ⟨S131072x256, .f32⟩
  | .hbm, ⟨85, _⟩ => ⟨S131072x1x256, .f32⟩
  | .hbm, ⟨86, _⟩ => ⟨S131072x1x256, .f32⟩
  | .hbm, ⟨87, _⟩ => ⟨S131072x2x256, .f32⟩
  | _, _ => ⟨S131072x2x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  slices_S131072x2x2x256_S131072x2x1x256_0_0_0_0 : S131072x2x2x256.Slices ![0, 0, 0, 0] S131072x2x1x256
  shapeCasts_S131072x2x1x256_S131072x2x256 : S131072x2x1x256.ShapeCasts S131072x2x256
  slices_S131072x2x2x256_S131072x2x1x256_0_0_1_0 : S131072x2x2x256.Slices ![0, 0, 1, 0] S131072x2x1x256
  reducesTo_S131072x2x256_S131072x256_d1 : S131072x2x256.ReducesTo [1] S131072x256
  h_S_ : 0 < S_.numel
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S_S131072x256 : S_.BroadcastsInDim S131072x256 (![] : Fin 0 → Fin S131072x256.rank)
  bcast_S256_S1x1x256_2 : S256.BroadcastsInDim S1x1x256 (![2] : Fin 1 → Fin S1x1x256.rank)
  bcast_S1x1x256_S131072x2x256_0_1_2 : S1x1x256.BroadcastsInDim S131072x2x256 (![0, 1, 2] : Fin 3 → Fin S131072x2x256.rank)
  bcast_S_S131072x2x256 : S_.BroadcastsInDim S131072x2x256 (![] : Fin 0 → Fin S131072x2x256.rank)
  reducesTo_S131072x256_S131072_d1 : S131072x256.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S131072x256_S131072x1x256_0_2 : S131072x256.BroadcastsInDim S131072x1x256 (![0, 2] : Fin 2 → Fin S131072x1x256.rank)
  concatenates_S131072x1x256_S131072x1x256_S131072x2x256_d1 : Shape.Concatenates [S131072x1x256, S131072x1x256] S131072x2x256 1
  dot_S131072x256_S256x768_S131072x768_1_0_0_1_n_n_wf : DotDims.WF S131072x256 S256x768 S131072x768 [1] [0] [0] [1] [] []
  dot_S131072x2x256_S256x256_S131072x2x256_2_0_01_1_n_n_wf : DotDims.WF S131072x2x256 S256x256 S131072x2x256 [2] [0] [0, 1] [1] [] []

variable [Facts₀]

def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf
def dot_S131072x2x256_S256x256_S131072x2x256_2_0_01_1_n_n : DotDims S131072x2x256 S256x256 S131072x2x256 where
  lhsContracting := [2]
  rhsContracting := [0]
  lhsNonContracting := [0, 1]
  rhsNonContracting := [1]
  lhsBatch := []
  rhsBatch := []
  wf := dot_S131072x2x256_S256x256_S131072x2x256_2_0_01_1_n_n_wf

class Facts : Prop extends Facts₀ where

variable [Facts]
-- ==== Proof.NodeSpec.lean ====
/-
  One tree node of the child-sum cell with a layer normalisation, as a function on the extended reals.

  A node has two children; child `k` brings a hidden row `x k 0` and a memory row `x k 1`, each of 256 entries.
  With `hs = x 0 0 + x 1 0` the summed hidden rows:
    pre      = hs · W₁ + b₁                                   (768 entries: three gates of 256)
    in, out  = logistic of the first and second third of pre,   upd = tanh of the last third
    fg k     = logistic (x k 0 · W₂ + b₂)                      (one forget gate per child)
    mem      = (in · upd + fg 0 · x 0 1) + fg 1 · x 1 1
    norm     = lnRow mem γ β, where for a row c:  mean = (Σ c) / 256,  var = (Σ (c − mean)²) / 256,
               lnRow c γ β = (c − mean) · rsqrt (var + ε) · γ + β
    hid      = out · tanh norm
  The node's two result rows are `hid` (row 0) and `norm` (row 1). The divisor 256 and ε are kept as the
  binary32 words both programs print (0x43800000 and 0x3727C5AC), so neither is ever evaluated.
-/
import Idealize.ShloMosaic.PureOps.Ideal
import Idealize.ShloMosaic.Lib.ValueIdx

noncomputable section

namespace Cert.TreeNode

open Idealize.ShloMosaic

/-! ### Layer normalisation of one row of 256 entries -/

/-- The row's mean, the divisor the binary32 word of 256. -/
def lnMean (c : Fin 256 → EReal) : EReal := Ideal.div (∑ d : Fin 256, c d) (Ideal.ofBits .f32 0x43800000#32)

/-- The row's (biased) variance. -/
def lnVar (c : Fin 256 → EReal) : EReal :=
  Ideal.div (∑ d : Fin 256, (c d - lnMean c) * (c d - lnMean c)) (Ideal.ofBits .f32 0x43800000#32)

/-- The normalised row, scaled by `γ` and shifted by `β`. -/
def lnRow (c γ β : Fin 256 → EReal) (d : Fin 256) : EReal :=
  (c d - lnMean c) * Ideal.rsqrt (lnVar c + Ideal.ofBits .f32 0x3727C5AC#32) * γ d + β d

/-! ### The node -/

variable (x : Fin 2 → Fin 2 → Fin 256 → EReal) (W₁ : Fin 256 → Fin 768 → EReal) (b₁ : Fin 768 → EReal)
  (W₂ : Fin 256 → Fin 256 → EReal) (b₂ γ β : Fin 256 → EReal)

/-- The children's hidden rows, summed. -/
def hsum (j : Fin 256) : EReal := x 0 0 j + x 1 0 j

/-- The three gates' pre-activations, side by side: `hs · W₁ + b₁`. -/
def pre (e : Fin 768) : EReal := (∑ j : Fin 256, hsum x j * W₁ j e) + b₁ e

/-- Column `d` of the first, second and last third of the 768 pre-activations. -/
def col0 (d : Fin 256) : Fin 768 := ⟨0 + d.val, by have := d.isLt; omega⟩
def col1 (d : Fin 256) : Fin 768 := ⟨256 + d.val, by have := d.isLt; omega⟩
def col2 (d : Fin 256) : Fin 768 := ⟨512 + d.val, by have := d.isLt; omega⟩

def gateIn (d : Fin 256) : EReal := Ideal.logistic (pre x W₁ b₁ (col0 d))
def gateOut (d : Fin 256) : EReal := Ideal.logistic (pre x W₁ b₁ (col1 d))
def gateUpd (d : Fin 256) : EReal := Ideal.tanh (pre x W₁ b₁ (col2 d))

/-- Child `k`'s forget gate: `logistic (x k 0 · W₂ + b₂)`. -/
def forget (k : Fin 2) (d : Fin 256) : EReal := Ideal.logistic ((∑ j : Fin 256, x k 0 j * W₂ j d) + b₂ d)

/-- The new memory row before normalisation. -/
def mem (d : Fin 256) : EReal :=
  (gateIn x W₁ b₁ d * gateUpd x W₁ b₁ d + forget x W₂ b₂ 0 d * x 0 1 d) + forget x W₂ b₂ 1 d * x 1 1 d

/-- The normalised memory row: the node's second result row. -/
def norm (d : Fin 256) : EReal := lnRow (mem x W₁ b₁ W₂ b₂) γ β d

/-- The new hidden row: the node's first result row. -/
def hid (d : Fin 256) : EReal := gateOut x W₁ b₁ d * Ideal.tanh (norm x W₁ b₁ W₂ b₂ γ β d)

/-- The node's two result rows. -/
def out (s : Fin 2) (d : Fin 256) : EReal :=
  if s.val = 0 then hid x W₁ b₁ W₂ b₂ γ β d else norm x W₁ b₁ W₂ b₂ γ β d

theorem out_zero (d : Fin 256) : out x W₁ b₁ W₂ b₂ γ β 0 d = hid x W₁ b₁ W₂ b₂ γ β d := rfl
theorem out_one (d : Fin 256) : out x W₁ b₁ W₂ b₂ γ β 1 d = norm x W₁ b₁ W₂ b₂ γ β d := rfl

end Cert.TreeNode

end
-- ==== Proof.GateValue.lean ====
/-
  The gates of one block of 1024 nodes, read at a row and a column.
-/
import proofs.«116960_j84791244357740_1_alg».proof.Proof.Gen.KernelIdeal.Skeleton
import proofs.«116960_j84791244357740_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

noncomputable section

namespace Cert.TreeNode

open Cert.KernelIdeal Cert.KernelIdeal.Gen Idealize.ShloMosaic Idealize.ShloMosaic.ValueIdx

/-- Row `r` of the four loaded slabs as one node's data: child 0's hidden and memory rows are `v0` and `v4`,
    child 1's are `v2` and `v6`. -/
def slabRow (v0 v2 v4 v6 : Vec Ideal S1024x1x1x256 .f32) (r : Fin 1024) : Fin 2 → Fin 2 → Fin 256 → EReal :=
  fun k h j =>
    if k.val = 0 then (if h.val = 0 then v0 (ix4 r 0 0 j) else v4 (ix4 r 0 0 j))
    else (if h.val = 0 then v2 (ix4 r 0 0 j) else v6 (ix4 r 0 0 j))

/-- A `[a, 1, 1, b]` array cast to `[a, b]` reads, at `(i, j)`, the operand at `(i, 0, 0, j)`. -/
private theorem shapeCast_a11b_ab_apply {α : Type} {a b : ℕ} (x : (⟨4, ![a, 1, 1, b]⟩ : Shape).Idx → α)
    (h : (⟨4, ![a, 1, 1, b]⟩ : Shape).ShapeCasts ⟨2, ![a, b]⟩) (i : Fin a) (j : Fin b) :
    shapeCast ⟨2, ![a, b]⟩ x h (ix2 i j) = x (ix4 i (0 : Fin 1) (0 : Fin 1) j) :=
  shapeCast_apply x h _ _ (by
    rw [Shape.rowMajor_val_four, Shape.rowMajor_val_two]
    show ((i.val * 1 + 0) * 1 + 0) * b + j.val = i.val * b + j.val
    simp only [Nat.mul_one, Nat.add_zero])

/-! ### The [1024,256] × [256,768] product read at a row and a column -/

private theorem lhs768_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
private theorem lhs768_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
private theorem rhs768_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
private theorem rhs768_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- The [1024,256] × [256,768] product into the zero accumulator, at row `r` and column `e`: the sum over the 256
    contracted entries of the left row times the right column. -/
private theorem matmul768_apply (A : FVec Ideal S1024x256 .bf16) (B : FVec Ideal S256x768 .bf16) (r : Fin 1024) (e : Fin 768) :
    matmul dot_S1024x256_S256x768_S1024x768_1_0_0_1_n_n none A B (constant (F := Ideal) S1024x768 .f32 0x00000000#32) (ix2 r e)
      = ∑ k : Fin 256, A (ix2 r k) * B (ix2 k e) := by
  refine (Ideal.matmul_constant_zero_apply dot_S1024x256_S256x768_S1024x768_1_0_0_1_n_n none A B (ix2 r e)).trans ?_
  rw [← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 r e) ((contrEquiv1 dot_S1024x256_S256x768_S1024x768_1_0_0_1_n_n 256 rfl rfl).symm k) = ix2 r k := funext fun a => Fin.ext (by
    match a with
    | ⟨0, _⟩ => exact lhs768_0 _ _
    | ⟨1, _⟩ => exact (lhs768_1 _ _).trans hk)
  have er : dot_S1024x256_S256x768_S1024x768_1_0_0_1_n_n.rhsIdx (ix2 r e) ((contrEquiv1 dot_S1024x256_S256x768_S1024x768_1_0_0_1_n_n 256 rfl rfl).symm k) = ix2 k e := funext fun a => Fin.ext (by
    match a with
    | ⟨0, _⟩ => exact (rhs768_0 _ _).trans hk
    | ⟨1, _⟩ => exact rhs768_1 _ _)
  rw [el, er]

/-! ### The [1024,256] × [256,256] product read at a row and a column -/

private theorem lhs256_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhs256_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhs256_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhs256_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The [1024,256] × [256,256] product into the zero accumulator, at row `r` and column `e`: the sum over the 256
    contracted entries of the left row times the right column. -/
private theorem matmul256_apply (A : FVec Ideal S1024x256 .bf16) (B : FVec Ideal S256x256 .bf16) (r : Fin 1024) (e : Fin 256) :
    matmul dot_S1024x256_S256x256_S1024x256_1_0_0_1_n_n none A B (constant (F := Ideal) S1024x256 .f32 0x00000000#32) (ix2 r e)
      = ∑ k : Fin 256, A (ix2 r k) * B (ix2 k e) := by
  refine (Ideal.matmul_constant_zero_apply dot_S1024x256_S256x256_S1024x256_1_0_0_1_n_n none A B (ix2 r e)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r e) ((contrEquiv1 dot_S1024x256_S256x256_S1024x256_1_0_0_1_n_n 256 rfl rfl).symm k) = ix2 r k := funext fun a => Fin.ext (by
    match a with
    | ⟨0, _⟩ => exact lhs256_0 _ _
    | ⟨1, _⟩ => exact (lhs256_1 _ _).trans hk)
  have er : dot_S1024x256_S256x256_S1024x256_1_0_0_1_n_n.rhsIdx (ix2 r e) ((contrEquiv1 dot_S1024x256_S256x256_S1024x256_1_0_0_1_n_n 256 rfl rfl).symm k) = ix2 k e := funext fun a => Fin.ext (by
    match a with
    | ⟨0, _⟩ => exact (rhs256_0 _ _).trans hk
    | ⟨1, _⟩ => exact rhs256_1 _ _)
  rw [el, er]

variable (v0 v2 v4 v6 : Vec Ideal S1024x1x1x256 .f32) (v9 : Vec Ideal S256x768 .bf16) (v13 : Vec Ideal S768 .f32)
  (v23 : Vec Ideal S256x256 .bf16) (v25 : Vec Ideal S256 .f32) (r : Fin 1024) (d : Fin 256)

/-! ### The node's four rows are the four slabs' rows -/

theorem slabRow_0_0 (j : Fin 256) : slabRow v0 v2 v4 v6 r 0 0 j = v0 (ix4 r 0 0 j) := rfl
theorem slabRow_0_1 (j : Fin 256) : slabRow v0 v2 v4 v6 r 0 1 j = v4 (ix4 r 0 0 j) := rfl
theorem slabRow_1_0 (j : Fin 256) : slabRow v0 v2 v4 v6 r 1 0 j = v2 (ix4 r 0 0 j) := rfl
theorem slabRow_1_1 (j : Fin 256) : slabRow v0 v2 v4 v6 r 1 1 j = v6 (ix4 r 0 0 j) := rfl

/-! ### The loaded slabs as matrices -/

theorem pay4_apply : k0_pay4 (F := Ideal) v0 (ix2 r d) = v0 (ix4 r 0 0 d) :=
  shapeCast_a11b_ab_apply v0 _ r d

theorem pay5_apply : k0_pay5 (F := Ideal) v2 (ix2 r d) = v2 (ix4 r 0 0 d) :=
  shapeCast_a11b_ab_apply v2 _ r d

theorem pay6_apply : k0_pay6 (F := Ideal) v4 (ix2 r d) = v4 (ix4 r 0 0 d) :=
  shapeCast_a11b_ab_apply v4 _ r d

theorem pay7_apply : k0_pay7 (F := Ideal) v6 (ix2 r d) = v6 (ix4 r 0 0 d) :=
  shapeCast_a11b_ab_apply v6 _ r d

/-! ### The three gates' pre-activations -/

/-- Row `r`, column `e` of the 768 pre-activations: the summed hidden rows times the weights' column `e`, plus
    the bias at `e`. -/
theorem pay8_apply (e : Fin 768) : k0_pay8 (F := Ideal) v0 v2 v9 v13 (ix2 r e)
    = pre (slabRow v0 v2 v4 v6 r) (fun j e => v9 (ix2 j e)) (fun e => v13 (ix1 e)) e := by
  unfold k0_pay8 pre
  refine (addf_apply _ _ _).trans ?_
  refine congrArg₂ (· + ·) ?_ ?_
  · refine (matmul768_apply _ _ r e).trans ?_
    refine Finset.sum_congr rfl fun k _ => ?_
    refine congrArg₂ (· * ·) ?_ ?_
    · show k0_pay4 (F := Ideal) v0 (ix2 r k) + k0_pay5 (F := Ideal) v2 (ix2 r k) = v0 (ix4 r 0 0 k) + v2 (ix4 r 0 0 k)
      exact congrArg₂ (· + ·) (pay4_apply v0 r k) (pay5_apply v2 r k)
    · exact congrFun (shapeCast_self v9 _) (ix2 k e)
  · refine (broadcastTo_1b_ab_apply _ _ r e).trans ?_
    exact shapeCast_a_1a_apply v13 _ 0 e

theorem pay9_apply : k0_pay9 (F := Ideal) v0 v2 v9 v13 (ix2 r d)
    = gateIn (slabRow v0 v2 v4 v6 r) (fun j e => v9 (ix2 j e)) (fun e => v13 (ix1 e)) d := by
  unfold k0_pay9 gateIn
  refine congrArg Ideal.logistic ?_
  refine (slice2_axis1_apply 0 _ _ r d (col0 d) rfl).trans ?_
  exact pay8_apply v0 v2 v4 v6 v9 v13 r (col0 d)

theorem pay10_apply : k0_pay10 (F := Ideal) v0 v2 v9 v13 (ix2 r d)
    = gateOut (slabRow v0 v2 v4 v6 r) (fun j e => v9 (ix2 j e)) (fun e => v13 (ix1 e)) d := by
  unfold k0_pay10 gateOut
  refine congrArg Ideal.logistic ?_
  refine (slice2_axis1_apply 256 _ _ r d (col1 d) rfl).trans ?_
  exact pay8_apply v0 v2 v4 v6 v9 v13 r (col1 d)

theorem pay11_apply : k0_pay11 (F := Ideal) v0 v2 v9 v13 (ix2 r d)
    = gateUpd (slabRow v0 v2 v4 v6 r) (fun j e => v9 (ix2 j e)) (fun e => v13 (ix1 e)) d := by
  unfold k0_pay11 gateUpd
  refine congrArg Ideal.tanh ?_
  refine (slice2_axis1_apply 512 _ _ r d (col2 d) rfl).trans ?_
  exact pay8_apply v0 v2 v4 v6 v9 v13 r (col2 d)

/-! ### The forget gates -/

theorem pay13_apply : k0_pay13 (F := Ideal) v0 v23 v25 (ix2 r d)
    = forget (slabRow v0 v2 v4 v6 r) (fun j e => v23 (ix2 j e)) (fun e => v25 (ix1 e)) 0 d := by
  unfold k0_pay13 forget
  refine congrArg Ideal.logistic ?_
  refine (addf_apply _ _ _).trans ?_
  refine congrArg₂ (· + ·) ?_ ?_
  · refine (matmul256_apply _ _ r d).trans ?_
    refine Finset.sum_congr rfl fun k _ => ?_
    refine congrArg₂ (· * ·) ?_ ?_
    · show k0_pay4 (F := Ideal) v0 (ix2 r k) = v0 (ix4 r 0 0 k)
      exact pay4_apply v0 r k
    · exact congrFun (shapeCast_self v23 _) (ix2 k d)
  · refine (broadcastTo_1b_ab_apply _ _ r d).trans ?_
    exact shapeCast_a_1a_apply v25 _ 0 d

theorem pay14_apply : k0_pay14 (F := Ideal) v2 v23 (ix2 r d)
    = ∑ j : Fin 256, slabRow v0 v2 v4 v6 r 1 0 j * v23 (ix2 j d) := by
  unfold k0_pay14
  refine (matmul256_apply _ _ r d).trans ?_
  refine Finset.sum_congr rfl fun k _ => ?_
  refine congrArg₂ (· * ·) ?_ ?_
  · show k0_pay5 (F := Ideal) v2 (ix2 r k) = v2 (ix4 r 0 0 k)
    exact pay5_apply v2 r k
  · exact congrFun (shapeCast_self v23 _) (ix2 k d)

end Cert.TreeNode

end
-- ==== Proof.NormValue.lean ====
/-
  The layer normalisation and the two stored values of one block of 1024 nodes, read at a row and a column.
-/
import proofs.«116960_j84791244357740_1_alg».proof.Proof.Gen.KernelIdeal.Skeleton
import proofs.«116960_j84791244357740_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

noncomputable section

namespace Cert.TreeNode

open Cert.KernelIdeal Cert.KernelIdeal.Gen Idealize.ShloMosaic Idealize.ShloMosaic.ValueIdx

/-- The memory row of node `r` of the block before normalisation, from the gate values: `v18`, `v22`, `v31` the input,
    update and first forget gate, `v33` the second forget gate's product before its bias `v25`, `v5` and `v7` the
    children's memory rows. -/
def memRow (v5 v7 v18 v22 : FVec Ideal S1024x256 .f32) (v25 : Vec Ideal S256 .f32) (v31 v33 : FVec Ideal S1024x256 .f32)
    (r : Fin 1024) (d : Fin 256) : EReal :=
  (v18 (ix2 r d) * v22 (ix2 r d) + v31 (ix2 r d) * v5 (ix2 r d))
    + Ideal.logistic (v33 (ix2 r d) + v25 (ix1 d)) * v7 (ix2 r d)

/-! ### Layout operations read at a row and a column -/

section Layout
variable {α : Type}

/-- An `[a]` array cast to the column `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A row of 256 entries laid over the 1024 rows reads, at `(r, d)`, its entry `d`. -/
private theorem rowOver_apply (v : S256.Idx → α) (r : Fin 1024) (d : Fin 256) :
    broadcastTo S1024x256 (shapeCast S1x256 v shapeCasts_S256_S1x256) broadcasts_S1x256_S1024x256 (ix2 r d) = v (ix1 d) :=
  (broadcastTo_1b_ab_apply _ _ r d).trans (shapeCast_a_1a_apply v _ 0 d)

/-- A column of 1024 entries, one per row, laid over the 256 columns reads, at `(r, d)`, the entry of row `r`. -/
private theorem colOver_apply (v : S1024x1.Idx → α) (r : Fin 1024) (d : Fin 256) :
    broadcastTo S1024x256 v broadcasts_S1024x1_S1024x256 (ix2 r d) = v (ix2 r (0 : Fin 1)) :=
  broadcastTo_a1_ab_apply v _ r d

end Layout

/-- The sum over axis 1 of a block of 1024 rows of 256 entries reads, at row `r`, the sum of the row's entries. -/
private theorem rowSum_apply (src : FVec Ideal S1024x256 .f32) (r : Fin 1024) :
    multiReduction (F := Ideal) .add [1] S1024 src 0x00000000#32 reduces_S1024x256_S1024 (.inl rfl) rfl (ix1 r)
      = ∑ e : Fin 256, src (ix2 r e) := by
  refine (Ideal.multiReduction_add_single src 0x00000000#32 reduces_S1024x256_S1024 (.inl rfl) rfl (ix1 r)).trans ?_
  refine Finset.sum_congr rfl fun e _ => congrArg src ?_
  funext c
  match c with
  | ⟨0, _⟩ => rfl
  | ⟨1, _⟩ => rfl

/-! ### The pointwise functions read at an index -/

section Pointwise
variable {s : Shape} {φ : FTy}

/-- A logistic at an index is the logistic of the element … -/
private theorem logistic_apply (a : FVec Ideal s φ) (i : s.Idx) : logistic a i = Ideal.logistic (a i) := rfl
/-- … a reciprocal square root that of the element … -/
private theorem rsqrt_apply (a : FVec Ideal s φ) (i : s.Idx) : rsqrt a i = Ideal.rsqrt (a i) := rfl
/-- … and a hyperbolic tangent that of the element. -/
private theorem tanh_apply (a : FVec Ideal s φ) (i : s.Idx) : tanh a i = Ideal.tanh (a i) := rfl

end Pointwise

variable (v5 v7 v18 v20 v22 : FVec Ideal S1024x256 .f32) (v25 : Vec Ideal S256 .f32) (v31 v33 : FVec Ideal S1024x256 .f32)
  (v61 v65 : Vec Ideal S256 .f32) (r : Fin 1024) (d : Fin 256)

theorem pay1_apply : k0_pay1 (F := Ideal) v5 v7 v18 v22 v25 v31 v33 v61 v65 (ix2 r d)
    = lnRow (memRow v5 v7 v18 v22 v25 v31 v33 r) (fun e => v61 (ix1 e)) (fun e => v65 (ix1 e)) d := by
  unfold k0_pay1
  -- the entry (r, d) through the pointwise operations and the layouts, down to the two row sums
  simp only [addf_apply, mulf_apply, subf_apply, divf_apply, broadcast_apply, logistic_apply, rsqrt_apply,
    rowOver_apply, colOver_apply, shapeCast_a_a1_apply]
  -- the sum of row r and the sum of its squared deviations from the mean
  rw [rowSum_apply, rowSum_apply]
  simp only [addf_apply, mulf_apply, subf_apply, divf_apply, broadcast_apply, logistic_apply, rsqrt_apply,
    rowOver_apply, colOver_apply, shapeCast_a_a1_apply]
  -- the mean inside each squared deviation is again the sum of row r over the word of 256
  rw [rowSum_apply]
  simp only [addf_apply, mulf_apply, subf_apply, divf_apply, broadcast_apply, logistic_apply, rsqrt_apply,
    rowOver_apply, colOver_apply, shapeCast_a_a1_apply]
  rfl

theorem pay2_apply : k0_pay2 (F := Ideal) v5 v7 v18 v20 v22 v25 v31 v33 v61 v65 (ix3 r 0 d)
    = v20 (ix2 r d) * Ideal.tanh (lnRow (memRow v5 v7 v18 v22 v25 v31 v33 r) (fun e => v61 (ix1 e)) (fun e => v65 (ix1 e)) d) := by
  unfold k0_pay2
  refine (shapeCast_ab_a1b_apply _ _ r 0 d).trans ?_
  rw [mulf_apply, tanh_apply, pay1_apply]

theorem pay3_apply : k0_pay3 (F := Ideal) v5 v7 v18 v22 v25 v31 v33 v61 v65 (ix3 r 0 d)
    = lnRow (memRow v5 v7 v18 v22 v25 v31 v33 r) (fun e => v61 (ix1 e)) (fun e => v65 (ix1 e)) d := by
  unfold k0_pay3
  exact (shapeCast_ab_a1b_apply _ _ r 0 d).trans (pay1_apply v5 v7 v18 v22 v25 v31 v33 v61 v65 r d)

end Cert.TreeNode

end
-- ==== Proof.BlockValue.lean ====
/-
  What the kernel body leaves in the result block of 1024 nodes, read at a node, a result row and a column:
  node `r` of the block gets the specification's two result rows of node `r` of the input block.

  The body stores the block in two pieces: result row 0 of every node (the hidden rows) through the rectangle at
  offsets (0, 0, 0), result row 1 (the normalised memory rows) through the one at offsets (0, 1, 0). It reads the input
  block through four rectangles, one per child and per hidden / memory selector, and the parameters whole.
-/
import proofs.«116960_j84791244357740_1_alg».proof.Proof.Gen.KernelIdeal.Frame
import proofs.«116960_j84791244357740_1_alg».proof.Proof.GateValue
import proofs.«116960_j84791244357740_1_alg».proof.Proof.NormValue

noncomputable section

namespace Cert.TreeNode

open Cert.KernelIdeal Cert.KernelIdeal.Gen Idealize.ShloMosaic Idealize.ShloMosaic.ValueIdx

/-! ### The rectangles' indices -/

theorem zeros1 : (![0] : Fin 1 → Nat) = fun _ => 0 := funext fun a => by match a with | ⟨0, _⟩ => rfl
theorem zeros2 : (![0, 0] : Fin 2 → Nat) = fun _ => 0 := funext fun a => by match a with | ⟨0, _⟩ => rfl | ⟨1, _⟩ => rfl

variable (r : Fin 1024) (j d : Fin 256)

/-- The four slabs of the input block: child `k`, selector `h` sits at offsets (0, k, h, 0). -/
theorem idx_slab00 : r0_0.idx (ix4 r 0 0 j) = ix4 r 0 0 j :=
  funext fun a => Fin.ext (by match a with | ⟨0, _⟩ => simp [r0_0] | ⟨1, _⟩ => simp [r0_0] | ⟨2, _⟩ => simp [r0_0] | ⟨3, _⟩ => simp [r0_0])
theorem idx_slab10 : r0_1.idx (ix4 r 0 0 j) = ix4 r 1 0 j :=
  funext fun a => Fin.ext (by match a with | ⟨0, _⟩ => simp [r0_1] | ⟨1, _⟩ => simp [r0_1] | ⟨2, _⟩ => simp [r0_1] | ⟨3, _⟩ => simp [r0_1])
theorem idx_slab01 : r0_2.idx (ix4 r 0 0 j) = ix4 r 0 1 j :=
  funext fun a => Fin.ext (by match a with | ⟨0, _⟩ => simp [r0_2] | ⟨1, _⟩ => simp [r0_2] | ⟨2, _⟩ => simp [r0_2] | ⟨3, _⟩ => simp [r0_2])
theorem idx_slab11 : r0_3.idx (ix4 r 0 0 j) = ix4 r 1 1 j :=
  funext fun a => Fin.ext (by match a with | ⟨0, _⟩ => simp [r0_3] | ⟨1, _⟩ => simp [r0_3] | ⟨2, _⟩ => simp [r0_3] | ⟨3, _⟩ => simp [r0_3])

/-- The two stored pieces: result row `s` sits at offsets (0, s, 0). -/
theorem emb_row0 : r0_8.emb (ix3 r 0 d) = ix3 r 0 d :=
  funext fun a => Fin.ext (by match a with | ⟨0, _⟩ => simp [r0_8] | ⟨1, _⟩ => simp [r0_8] | ⟨2, _⟩ => simp [r0_8])
theorem emb_row1 : r0_9.emb (ix3 r 0 d) = ix3 r 1 d :=
  funext fun a => Fin.ext (by match a with | ⟨0, _⟩ => simp [r0_9] | ⟨1, _⟩ => simp [r0_9] | ⟨2, _⟩ => simp [r0_9])

/-- Result row 0 is not under the later piece. -/
theorem row0_not_mem : ix3 r 0 d ∉ r0_9.set := by
  intro h
  have h1 := (Rect.mem_set_unit.mp h) 1
  simp at h1

/-! ### The two pieces read back -/

/-- The block the two stores leave, at node `r`, result row `s`, column `d`: the piece of that result row there. -/
theorem canon_rows (p0 p1 : Vec Ideal S1024x1x256 .f32) (s : Fin 2) :
    View.canon [(⟨r0_9, p1⟩ : View.Piece (Elt Ideal) S1024x2x256 .f32), ⟨r0_8, p0⟩] (ix3 r s d)
      = if s.val = 0 then p0 (ix3 r 0 d) else p1 (ix3 r 0 d) := by
  match s with
  | ⟨0, _⟩ =>
    show View.canon [(⟨r0_9, p1⟩ : View.Piece (Elt Ideal) S1024x2x256 .f32), ⟨r0_8, p0⟩] (ix3 r 0 d) = p0 (ix3 r 0 d)
    rw [View.canon_cons_of_not_mem (⟨r0_9, p1⟩ : View.Piece (Elt Ideal) S1024x2x256 .f32) [⟨r0_8, p0⟩] (row0_not_mem r d)]
    have e := View.canon_cons_emb r0_8 p0 [] (ix3 r 0 d)
    rw [emb_row0] at e
    exact e
  | ⟨1, _⟩ =>
    show View.canon [(⟨r0_9, p1⟩ : View.Piece (Elt Ideal) S1024x2x256 .f32), ⟨r0_8, p0⟩] (ix3 r 1 d) = p1 (ix3 r 0 d)
    have e := View.canon_cons_emb r0_9 p1 [⟨r0_8, p0⟩] (ix3 r 0 d)
    rw [emb_row1] at e
    exact e

/-! ### The body's values as the specification's -/

variable (x0 : Vec Ideal S1024x2x2x256 .f32)

/-- Row `r` of the four slabs read off the input block is node `r` of the block. -/
theorem slabRow_ld :
    slabRow (View.ld x0 r0_0) (View.ld x0 r0_1) (View.ld x0 r0_2) (View.ld x0 r0_3) r = fun k h j => x0 (ix4 r k h j) := by
  funext k h j
  match k, h with
  | ⟨0, _⟩, ⟨0, _⟩ => show x0 (r0_0.idx (ix4 r 0 0 j)) = _; rw [idx_slab00]; rfl
  | ⟨0, _⟩, ⟨1, _⟩ => show x0 (r0_2.idx (ix4 r 0 0 j)) = _; rw [idx_slab01]; rfl
  | ⟨1, _⟩, ⟨0, _⟩ => show x0 (r0_1.idx (ix4 r 0 0 j)) = _; rw [idx_slab10]; rfl
  | ⟨1, _⟩, ⟨1, _⟩ => show x0 (r0_3.idx (ix4 r 0 0 j)) = _; rw [idx_slab11]; rfl

variable (v0 v2 v4 v6 : Vec Ideal S1024x1x1x256 .f32) (v9 : Vec Ideal S256x768 .bf16) (v13 : Vec Ideal S768 .f32)
  (v23 : Vec Ideal S256x256 .bf16) (v25 : Vec Ideal S256 .f32)

/-- The memory row the body forms from its gate values is the specification's, of row `r` of the slabs. -/
theorem memRow_gates :
    memRow (k0_pay6 (F := Ideal) v4) (k0_pay7 (F := Ideal) v6) (k0_pay9 (F := Ideal) v0 v2 v9 v13) (k0_pay11 (F := Ideal) v0 v2 v9 v13) v25
        (k0_pay13 (F := Ideal) v0 v23 v25) (k0_pay14 (F := Ideal) v2 v23) r
      = mem (slabRow v0 v2 v4 v6 r) (fun j e => v9 (ix2 j e)) (fun e => v13 (ix1 e)) (fun j e => v23 (ix2 j e)) (fun e => v25 (ix1 e)) := by
  funext d
  unfold memRow mem
  rw [pay9_apply v0 v2 v4 v6, pay11_apply v0 v2 v4 v6, pay13_apply v0 v2 v4 v6, pay14_apply v0 v2 v4 v6, pay6_apply, pay7_apply]
  rfl

/-- THE BLOCK: what the body leaves at node `r`, result row `s`, column `d` is the specification's result of node `r`
    of the input block, with the parameters' blocks (each the whole parameter) as they are. -/
theorem block_out (x1 : Vec Ideal S256x768 .bf16) (x2 : Vec Ideal S768 .f32) (x3 : Vec Ideal S256x256 .bf16)
    (x4 x5 x6 : Vec Ideal S256 .f32) (s : Fin 2) :
    out0_7 (F := Ideal) x0 x1 x2 x3 x4 x5 x6 (ix3 r s d)
      = out (fun k h j => x0 (ix4 r k h j)) (fun j e => x1 (ix2 j e)) (fun e => x2 (ix1 e)) (fun j e => x3 (ix2 j e))
          (fun e => x4 (ix1 e)) (fun e => x5 (ix1 e)) (fun e => x6 (ix1 e)) s d := by
  unfold out0_7
  simp only [View.ld_unit_zero (S := S256x768) zeros2, View.ld_unit_zero (S := S768) zeros1,
    View.ld_unit_zero (S := S256x256) zeros2, View.ld_unit_zero (S := S256) zeros1]
  rw [canon_rows, pay2_apply, pay3_apply, memRow_gates, pay10_apply _ _ (View.ld x0 r0_2) (View.ld x0 r0_3), slabRow_ld]
  rfl

end Cert.TreeNode

end
-- ==== Proof.ArraySpec.lean ====
/-
  The whole result array [131072, 2, 256] as one function of the argument arrays: node `n` of the result holds the
  two result rows of the specification's node function applied to node `n` of the input array [131072, 2, 2, 256]
  and to the parameters.
-/
import proofs.«116960_j84791244357740_1_alg».proof.Proof.NodeSpec

noncomputable section

namespace Cert.TreeNode

open Idealize.ShloMosaic Idealize.ShloMosaic.ValueIdx

/-- The whole result array from the argument arrays. -/
def wholeOut (X : (⟨4, ![131072, 2, 2, 256]⟩ : Shape).Idx → EReal) (A₁ : (⟨2, ![256, 768]⟩ : Shape).Idx → EReal)
    (c₁ : (⟨1, ![768]⟩ : Shape).Idx → EReal) (A₂ : (⟨2, ![256, 256]⟩ : Shape).Idx → EReal)
    (c₂ g h : (⟨1, ![256]⟩ : Shape).Idx → EReal) : (⟨3, ![131072, 2, 256]⟩ : Shape).Idx → EReal := fun i =>
  out (fun k s j => X (ix4 (⟨(i 0).val, (i 0).isLt⟩ : Fin 131072) k s j)) (fun j e => A₁ (ix2 j e)) (fun e => c₁ (ix1 e))
    (fun j e => A₂ (ix2 j e)) (fun e => c₂ (ix1 e)) (fun e => g (ix1 e)) (fun e => h (ix1 e))
    (⟨(i 1).val, (i 1).isLt⟩ : Fin 2) (⟨(i 2).val, (i 2).isLt⟩ : Fin 256)

/-- At node `n`, result row `s`, column `d`. -/
theorem wholeOut_apply (X : (⟨4, ![131072, 2, 2, 256]⟩ : Shape).Idx → EReal) (A₁ : (⟨2, ![256, 768]⟩ : Shape).Idx → EReal)
    (c₁ : (⟨1, ![768]⟩ : Shape).Idx → EReal) (A₂ : (⟨2, ![256, 256]⟩ : Shape).Idx → EReal)
    (c₂ g h : (⟨1, ![256]⟩ : Shape).Idx → EReal) (n : Fin 131072) (s : Fin 2) (d : Fin 256) :
    wholeOut X A₁ c₁ A₂ c₂ g h (ix3 n s d)
      = out (fun k s j => X (ix4 n k s j)) (fun j e => A₁ (ix2 j e)) (fun e => c₁ (ix1 e))
          (fun j e => A₂ (ix2 j e)) (fun e => c₂ (ix1 e)) (fun e => g (ix1 e)) (fun e => h (ix1 e)) s d := rfl

end Cert.TreeNode

end
-- ==== Proof.ArrayValue.lean ====
/-
  The kernel's result array after its run, as one function of the argument arrays: node `n` of the result is the
  specification's result of node `n` of the input.

  The grid has 128 points; point `t` works on nodes 1024·t … 1024·t + 1023: it reads that block of the input array and
  the parameters whole (the two weight matrices as the host program stored them in the narrower format, which at the
  extended reals is the same array), and writes back that block of the result. The 128 blocks tile the result array.
-/
import proofs.«116960_j84791244357740_1_alg».proof.Proof.Gen.KernelIdeal.Value
import proofs.«116960_j84791244357740_1_alg».proof.Proof.BlockValue
import proofs.«116960_j84791244357740_1_alg».proof.Proof.ArraySpec
import Idealize.ShloMosaic.Lib.Pipeline.Value
import Idealize.ShloMosaic.Lib.StableHlo.Run

noncomputable section

namespace Cert.TreeNode

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ### The arrays as the region finds them -/

/-- The first weight matrix as the host program stored it for the region: the argument itself, entry by entry. -/
theorem V_w1 (c : Dev nD) (j : Fin 256) (e : Fin 768) :
    V m c main_v0 (ix2 j e) = m ((c : Thread nD τ).loc main_arg1) (ix2 j e) := by
  have e0 : @Eq (FVec Ideal S256x768 .bf16) (V m c main_v0)
      (truncf .bf16 (show FVec Ideal S256x768 .f32 from m ((c : Thread nD τ).loc main_arg1)) bitsLt_bf16_f32) := by
    dsimp only [Gen.V, Gen.hostOps0]; after_results
  rw [e0]; rfl

/-- The second weight matrix likewise. -/
theorem V_w2 (c : Dev nD) (j e : Fin 256) :
    V m c main_v1 (ix2 j e) = m ((c : Thread nD τ).loc main_arg3) (ix2 j e) := by
  have e0 : @Eq (FVec Ideal S256x256 .bf16) (V m c main_v1)
      (truncf .bf16 (show FVec Ideal S256x256 .f32 from m ((c : Thread nD τ).loc main_arg3)) bitsLt_bf16_f32) := by
    dsimp only [Gen.V, Gen.hostOps0]; after_results
  rw [e0]; rfl

/-! ### The blocks -/

/-- The printed index maps over the grid: the input's and the result's block index on the node axis is the point, every
    other block index is zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- Block `t` of the input array, read at node `r` of the block: node 1024·t + r of the array. -/
theorem iblk_input (c : Dev nD) (t : Fin cfg0.N) (r : Fin 1024) (k s : Fin 2) (j : Fin 256) (hn : t.val * 1024 + r.val < 131072) :
    iblk m c 0 t (ix4 r k s j) = m ((c : Thread nD τ).loc main_arg0) (ix4 (⟨t.val * 1024 + r.val, hn⟩ : Fin 131072) k s j) := by
  show V m c main_arg0 (((cfg0.win 0).blk t).view.emb (ix4 r k s j)) = _
  rw [V_main_arg0]
  obtain ⟨e0, e1, e2, e3, -⟩ := idx_facts t
  refine congrArg _ (funext fun a => Fin.ext ?_)
  match a with
  | ⟨0, _⟩ => show win0_0.index t (0 : Fin 4) * 1024 + 1 * r.val = t.val * 1024 + r.val; omega
  | ⟨1, _⟩ => show win0_0.index t (1 : Fin 4) * 2 + 1 * k.val = k.val; omega
  | ⟨2, _⟩ => show win0_0.index t (2 : Fin 4) * 2 + 1 * s.val = s.val; omega
  | ⟨3, _⟩ => show win0_0.index t (3 : Fin 4) * 256 + 1 * j.val = j.val; omega

/-- The parameters' blocks are the whole parameters, at every point. -/
theorem iblk_w1 (c : Dev nD) (t : Fin cfg0.N) (j : Fin 256) (e : Fin 768) :
    iblk m c 1 t (ix2 j e) = m ((c : Thread nD τ).loc main_arg1) (ix2 j e) := by
  show V m c main_v0 (((cfg0.win 1).blk t).view.emb (ix2 j e)) = _
  obtain ⟨-, -, -, -, e0, e1, -⟩ := idx_facts t
  have he : ((cfg0.win 1).blk t).view.emb (ix2 j e) = ix2 j e := funext fun a => Fin.ext (by
    match a with
    | ⟨0, _⟩ => show win0_1.index t (0 : Fin 2) * 256 + 1 * j.val = j.val; omega
    | ⟨1, _⟩ => show win0_1.index t (1 : Fin 2) * 768 + 1 * e.val = e.val; omega)
  rw [he, V_w1]

theorem iblk_b1 (c : Dev nD) (t : Fin cfg0.N) (e : Fin 768) :
    iblk m c 2 t (ix1 e) = m ((c : Thread nD τ).loc main_arg2) (ix1 e) := by
  show V m c main_arg2 (((cfg0.win 2).blk t).view.emb (ix1 e)) = _
  obtain ⟨-, -, -, -, -, -, e0, -⟩ := idx_facts t
  have he : ((cfg0.win 2).blk t).view.emb (ix1 e) = ix1 e := funext fun a => Fin.ext (by
    match a with
    | ⟨0, _⟩ => show win0_2.index t (0 : Fin 1) * 768 + 1 * e.val = e.val; omega)
  rw [he, V_main_arg2]

theorem iblk_w2 (c : Dev nD) (t : Fin cfg0.N) (j e : Fin 256) :
    iblk m c 3 t (ix2 j e) = m ((c : Thread nD τ).loc main_arg3) (ix2 j e) := by
  show V m c main_v1 (((cfg0.win 3).blk t).view.emb (ix2 j e)) = _
  obtain ⟨-, -, -, -, -, -, -, e0, e1, -⟩ := idx_facts t
  have he : ((cfg0.win 3).blk t).view.emb (ix2 j e) = ix2 j e := funext fun a => Fin.ext (by
    match a with
    | ⟨0, _⟩ => show win0_3.index t (0 : Fin 2) * 256 + 1 * j.val = j.val; omega
    | ⟨1, _⟩ => show win0_3.index t (1 : Fin 2) * 256 + 1 * e.val = e.val; omega)
  rw [he, V_w2]

theorem iblk_b2 (c : Dev nD) (t : Fin cfg0.N) (e : Fin 256) :
    iblk m c 4 t (ix1 e) = m ((c : Thread nD τ).loc main_arg4) (ix1 e) := by
  show V m c main_arg4 (((cfg0.win 4).blk t).view.emb (ix1 e)) = _
  obtain ⟨-, -, -, -, -, -, -, -, -, e0, -⟩ := idx_facts t
  have he : ((cfg0.win 4).blk t).view.emb (ix1 e) = ix1 e := funext fun a => Fin.ext (by
    match a with
    | ⟨0, _⟩ => show win0_4.index t (0 : Fin 1) * 256 + 1 * e.val = e.val; omega)
  rw [he, V_main_arg4]

theorem iblk_gamma (c : Dev nD) (t : Fin cfg0.N) (e : Fin 256) :
    iblk m c 5 t (ix1 e) = m ((c : Thread nD τ).loc main_arg5) (ix1 e) := by
  show V m c main_arg5 (((cfg0.win 5).blk t).view.emb (ix1 e)) = _
  obtain ⟨-, -, -, -, -, -, -, -, -, -, e0, -⟩ := idx_facts t
  have he : ((cfg0.win 5).blk t).view.emb (ix1 e) = ix1 e := funext fun a => Fin.ext (by
    match a with
    | ⟨0, _⟩ => show win0_5.index t (0 : Fin 1) * 256 + 1 * e.val = e.val; omega)
  rw [he, V_main_arg5]

theorem iblk_beta (c : Dev nD) (t : Fin cfg0.N) (e : Fin 256) :
    iblk m c 6 t (ix1 e) = m ((c : Thread nD τ).loc main_arg6) (ix1 e) := by
  show V m c main_arg6 (((cfg0.win 6).blk t).view.emb (ix1 e)) = _
  obtain ⟨-, -, -, -, -, -, -, -, -, -, -, e0, -⟩ := idx_facts t
  have he : ((cfg0.win 6).blk t).view.emb (ix1 e) = ix1 e := funext fun a => Fin.ext (by
    match a with
    | ⟨0, _⟩ => show win0_6.index t (0 : Fin 1) * 256 + 1 * e.val = e.val; omega)
  rw [he, V_main_arg6]

/-- The whole-array specification of the argument arrays as launched. -/
abbrev target (c : Dev nD) : Vec Ideal S131072x2x256 .f32 :=
  wholeOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT `t` WRITES BACK is block `t` of the whole-array specification. -/
theorem flushed_eq (c : Dev nD) (t : Fin cfg0.N) :
    (dats m 0 c).flushed 7 t = ((cfg0.win 7).blk t).view.read (Elt Ideal) (target m c) := by
  rw [Cert.KernelIdeal.Value.flushed7]
  funext y
  obtain ⟨r, s, d, rfl⟩ : ∃ (r : Fin 1024) (s : Fin 2) (d : Fin 256), y = ix3 r s d := ⟨y 0, y 1, y 2, eq_ix3 y⟩
  have ht : t.val < 128 := lt_of_lt_of_eq t.isLt N_0
  have hn : t.val * 1024 + r.val < 131072 := by have := r.isLt; omega
  show out0_7 (F := Ideal) (iblk m c 0 t) (iblk m c 1 t) (iblk m c 2 t) (iblk m c 3 t) (iblk m c 4 t) (iblk m c 5 t) (iblk m c 6 t) (ix3 r s d)
    = target m c (((cfg0.win 7).blk t).view.emb (ix3 r s d))
  obtain ⟨-, -, -, -, -, -, -, -, -, -, -, -, e0, e1, e2⟩ := idx_facts t
  have he : ((cfg0.win 7).blk t).view.emb (ix3 r s d) = ix3 (⟨t.val * 1024 + r.val, hn⟩ : Fin 131072) s d :=
    funext fun a => Fin.ext (by
      match a with
      | ⟨0, _⟩ => show win0_7.index t (0 : Fin 3) * 1024 + 1 * r.val = t.val * 1024 + r.val; omega
      | ⟨1, _⟩ => show win0_7.index t (1 : Fin 3) * 2 + 1 * s.val = s.val; omega
      | ⟨2, _⟩ => show win0_7.index t (2 : Fin 3) * 256 + 1 * d.val = d.val; omega)
  rw [he]
  refine (block_out r d (iblk m c 0 t) (iblk m c 1 t) (iblk m c 2 t) (iblk m c 3 t) (iblk m c 4 t) (iblk m c 5 t) (iblk m c 6 t) s).trans ?_
  refine Eq.trans ?_ (wholeOut_apply _ _ _ _ _ _ _ (⟨t.val * 1024 + r.val, hn⟩ : Fin 131072) s d).symm
  simp only [iblk_input m c t r _ _ _ hn, iblk_w1, iblk_b1, iblk_w2, iblk_b2, iblk_gamma, iblk_beta]

/-- An index of the result array is in point `t`'s block iff each coordinate is in the block's range on its axis. -/
theorem mem_blk (t : Fin cfg0.N) (i : S131072x2x256.Idx) :
    i ∈ ((cfg0.win 7).blk t).view.set ↔ ∀ a : Fin 3, win0_7.index t a * S1024x2x256.size a ≤ (i a).val
      ∧ (i a).val < win0_7.index t a * S1024x2x256.size a + S1024x2x256.size a := by
  show i ∈ ((View.whole main_v2).slice (win0_7.rect t)).set ↔ _
  rw [View.set_slice_whole, Rect.mem_set_unit]
  exact Iff.rfl

/-- The 128 blocks tile the result array: node `n` is in the block of point `n / 1024`. -/
theorem covered (i : S131072x2x256.Idx) :
    ∃ t : Fin cfg0.N, (cfg0.win 7).flush t = true ∧ i ∈ ((cfg0.win 7).blk t).view.set := by
  have h0 : (i 0).val < 131072 := (i 0).isLt
  have h1 : (i 1).val < 2 := (i 1).isLt
  have h2 : (i 2).val < 256 := (i 2).isLt
  have hN : cfg0.N = 128 := N_0
  refine ⟨⟨(i 0).val / 1024, by rw [hN]; omega⟩, flush0_7 _, ?_⟩
  rw [mem_blk]
  obtain ⟨-, -, -, -, -, -, -, -, -, -, -, -, e0, e1, e2⟩ := idx_facts ⟨(i 0).val / 1024, by rw [hN]; omega⟩
  intro a
  match a with
  | ⟨0, _⟩ =>
    show win0_7.index _ (0 : Fin 3) * 1024 ≤ (i 0).val ∧ (i 0).val < win0_7.index _ (0 : Fin 3) * 1024 + 1024
    rw [e0]; show (i 0).val / 1024 * 1024 ≤ (i 0).val ∧ (i 0).val < (i 0).val / 1024 * 1024 + 1024; omega
  | ⟨1, _⟩ =>
    show win0_7.index _ (1 : Fin 3) * 2 ≤ (i 1).val ∧ (i 1).val < win0_7.index _ (1 : Fin 3) * 2 + 2
    rw [e1]; omega
  | ⟨2, _⟩ =>
    show win0_7.index _ (2 : Fin 3) * 256 ≤ (i 2).val ∧ (i 2).val < win0_7.index _ (2 : Fin 3) * 256 + 256
    rw [e2]; omega

/-- THE RESULT ARRAY after the run is the whole-array specification of the arguments. -/
theorem final (c : Dev nD) : (dats m 0 c).arrAt 7 cfg0.N = target m c :=
  (dats m 0 c).arrAt_eq_of_cover 7 (target m c) (fun t _ => flushed_eq m c t) covered

/-- The kernel's run, read: the result array ends at the specification of the arguments, which end unchanged. -/
theorem kernel_run : θ_run defs (onTc (τ := τ) (main (F := Ideal))) ⟨m, fun _ => 0, ρ⟩ fun r => ∀ c : Dev nD,
      r.2.mem ((c : Thread nD τ).loc main_v2) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.TreeNode

end
-- ==== Proof.RefMem.lean ====
/-
  The reference's gates and memory row, read at a node and a column.
-/
import proofs.«116960_j84791244357740_1_alg».proof.Proof.Gen.ReferenceIdeal.Read
import proofs.«116960_j84791244357740_1_alg».proof.Proof.NodeSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.TreeNode

open Cert.ReferenceIdeal Cert.ReferenceIdeal.Read Idealize.ShloMosaic Idealize.ShloMosaic.ValueIdx

variable (X : (⟨S131072x2x2x256, .f32⟩ : BufTy).Contents (Elt Ideal)) (A₁ : (⟨S256x768, .f32⟩ : BufTy).Contents (Elt Ideal))
  (c₁ : (⟨S768, .f32⟩ : BufTy).Contents (Elt Ideal)) (A₂ : (⟨S256x256, .f32⟩ : BufTy).Contents (Elt Ideal))
  (c₂ g h : (⟨S256, .f32⟩ : BufTy).Contents (Elt Ideal)) (n : Fin 131072) (d : Fin 256)

/-- Node `n` of the input array as one node's data. -/
def nodeRow (X : (⟨S131072x2x2x256, .f32⟩ : BufTy).Contents (Elt Ideal)) (n : Fin 131072) : Fin 2 → Fin 2 → Fin 256 → EReal :=
  fun k s j => X (ix4 n k s j)

/-- Child `k`'s hidden row: entry `j` of the slice at position 0 of the third axis, reshaped to three axes. -/
private theorem ref_childHid (k : Fin 2) (j : Fin 256) :
    val_main_v1 (F := Ideal) X (ix3 n k j) = X (ix4 n k 0 j) := by
  rw [val_main_v1_apply, val_main_v0_apply]
  refine congrArg X (funext fun a => Fin.ext ?_)
  have hn := n.isLt; have hk := k.isLt; have hj := j.isLt
  match a with
  | ⟨0, _⟩ => show ((n.val * 2 + k.val) * 256 + j.val) / 512 = n.val; omega
  | ⟨1, _⟩ => show ((n.val * 2 + k.val) * 256 + j.val) / 256 % 2 = k.val; omega
  | ⟨2, _⟩ => rfl
  | ⟨3, _⟩ => show ((n.val * 2 + k.val) * 256 + j.val) % 256 = j.val; omega

/-- Child `k`'s memory row: entry `j` of the slice at position 1 of the third axis, reshaped to three axes. -/
private theorem ref_childMem (k : Fin 2) (j : Fin 256) :
    val_main_v3 (F := Ideal) X (ix3 n k j) = X (ix4 n k 1 j) := by
  rw [val_main_v3_apply, val_main_v2_apply]
  refine congrArg X (funext fun a => Fin.ext ?_)
  have hn := n.isLt; have hk := k.isLt; have hj := j.isLt
  match a with
  | ⟨0, _⟩ => show ((n.val * 2 + k.val) * 256 + j.val) / 512 = n.val; omega
  | ⟨1, _⟩ => show ((n.val * 2 + k.val) * 256 + j.val) / 256 % 2 = k.val; omega
  | ⟨2, _⟩ => rfl
  | ⟨3, _⟩ => show ((n.val * 2 + k.val) * 256 + j.val) % 256 = j.val; omega

/-- The sum over the two children of their hidden rows, from the initial value zero. -/
private theorem ref_hsum (j : Fin 256) :
    val_main_v4 (F := Ideal) X (ix2 n j) = hsum (nodeRow X n) j := by
  rw [val_main_v4_apply, val_main_cst_apply, Fin.sum_univ_two]
  have e0 : idx_main_v4 (ix2 n j) 0 = ix3 n 0 j := funext fun a => Fin.ext (by match a with | ⟨0, _⟩ => rfl | ⟨1, _⟩ => rfl | ⟨2, _⟩ => rfl)
  have e1 : idx_main_v4 (ix2 n j) 1 = ix3 n 1 j := funext fun a => Fin.ext (by match a with | ⟨0, _⟩ => rfl | ⟨1, _⟩ => rfl | ⟨2, _⟩ => rfl)
  rw [e0, e1, ref_childHid, ref_childHid, Ideal.ofBits_def, Ideal.ofBits_zero_f32, zero_add]
  rfl

/-- The three gates' pre-activations: the summed hidden row times the first weight matrix, plus the first bias. -/
private theorem ref_pre (e : Fin 768) :
    val_main_v8 (F := Ideal) X A₁ c₁ (ix2 n e) = pre (nodeRow X n) (fun j e => A₁ (ix2 j e)) (fun e => c₁ (ix1 e)) e := by
  rw [val_main_v8_apply, val_main_v5_apply, val_main_v7_apply, val_main_v6_apply, Ideal.addf_def]
  have el : ∀ k : Fin 256, lidx_main_v5 (ix2 n e) k = ix2 n k := fun k =>
    funext fun a => Fin.ext (by match a with | ⟨0, _⟩ => rfl | ⟨1, _⟩ => rfl)
  have er : ∀ k : Fin 256, ridx_main_v5 (ix2 n e) k = ix2 k e := fun k =>
    funext fun a => Fin.ext (by match a with | ⟨0, _⟩ => rfl | ⟨1, _⟩ => rfl)
  have eb : idx_main_v6 (idx_main_v7 (ix2 n e)) = ix1 e :=
    funext fun a => Fin.ext (by match a with | ⟨0, _⟩ => rfl)
  rw [eb]
  refine congrArg (· + c₁ (ix1 e)) (Finset.sum_congr rfl fun k _ => ?_)
  rw [el, er, ref_hsum]

/-- The sigmoid as one over one plus the exponential of the negation, the two ones being the binary32 word of 1. -/
private theorem sigmoid_eq (v : EReal) :
    Ideal.div (Ideal.ofBits .f32 0x3F800000#32) (Ideal.ofBits .f32 0x3F800000#32 + Ideal.exp (-v)) = Ideal.logistic v := by
  rw [Ideal.ofBits_one_f32]; rfl

/-- The input gate: the sigmoid of the first third of the pre-activations. -/
private theorem ref_gateIn : val_main_v17 (F := Ideal) X A₁ c₁ (ix2 n d)
    = gateIn (nodeRow X n) (fun j e => A₁ (ix2 j e)) (fun e => c₁ (ix1 e)) d := by
  rw [val_main_v17_apply, val_main_v16_apply, val_main_cst_1_apply, val_main_v15_apply, val_main_v14_apply,
    val_main_cst_0_apply, val_main_v13_apply, val_main_v12_apply, val_main_v9_apply]
  have ei : idx_main_v9 (ix2 n d) = ix2 n (col0 d) :=
    funext fun a => Fin.ext (by match a with | ⟨0, _⟩ => rfl | ⟨1, _⟩ => exact (Nat.zero_add _).symm)
  rw [ei, ref_pre]
  simp only [Ideal.hostDivf_def, Ideal.addf_def, Ideal.hostUnary_exp_def, Ideal.hostNegf_def, Ideal.negf_def, Ideal.ofBits_def]
  exact sigmoid_eq _

/-- The update gate: the hyperbolic tangent of the last third of the pre-activations. -/
private theorem ref_gateUpd : val_main_v24 (F := Ideal) X A₁ c₁ (ix2 n d)
    = gateUpd (nodeRow X n) (fun j e => A₁ (ix2 j e)) (fun e => c₁ (ix1 e)) d := by
  rw [val_main_v24_apply, val_main_v11_apply]
  have ei : idx_main_v11 (ix2 n d) = ix2 n (col2 d) :=
    funext fun a => Fin.ext (by match a with | ⟨0, _⟩ => rfl | ⟨1, _⟩ => rfl)
  rw [ei, ref_pre, Ideal.hostUnary_tanh_def]
  rfl

theorem ref_gateOut : val_main_v23 (F := Ideal) X A₁ c₁ (ix2 n d)
    = gateOut (nodeRow X n) (fun j e => A₁ (ix2 j e)) (fun e => c₁ (ix1 e)) d := by
  rw [val_main_v23_apply, val_main_v22_apply, val_main_cst_3_apply, val_main_v21_apply, val_main_v20_apply,
    val_main_cst_2_apply, val_main_v19_apply, val_main_v18_apply, val_main_v10_apply]
  have ei : idx_main_v10 (ix2 n d) = ix2 n (col1 d) :=
    funext fun a => Fin.ext (by match a with | ⟨0, _⟩ => rfl | ⟨1, _⟩ => rfl)
  rw [ei, ref_pre]
  simp only [Ideal.hostDivf_def, Ideal.addf_def, Ideal.hostUnary_exp_def, Ideal.hostNegf_def, Ideal.negf_def, Ideal.ofBits_def]
  exact sigmoid_eq _

/-- Child `k`'s forget gate: the sigmoid of the child's hidden row times the second weight matrix, plus the second bias. -/
private theorem ref_forget (k : Fin 2) : val_main_v34 (F := Ideal) X A₂ c₂ (ix3 n k d)
    = forget (nodeRow X n) (fun j e => A₂ (ix2 j e)) (fun e => c₂ (ix1 e)) k d := by
  rw [val_main_v34_apply, val_main_v33_apply, val_main_cst_5_apply, val_main_v32_apply, val_main_v31_apply,
    val_main_cst_4_apply, val_main_v30_apply, val_main_v29_apply, val_main_v28_apply, val_main_v25_apply,
    val_main_v27_apply, val_main_v26_apply]
  have el : ∀ j : Fin 256, lidx_main_v25 (ix3 n k d) j = ix3 n k j := fun j =>
    funext fun a => Fin.ext (by match a with | ⟨0, _⟩ => rfl | ⟨1, _⟩ => rfl | ⟨2, _⟩ => rfl)
  have er : ∀ j : Fin 256, ridx_main_v25 (ix3 n k d) j = ix2 j d := fun j =>
    funext fun a => Fin.ext (by match a with | ⟨0, _⟩ => rfl | ⟨1, _⟩ => rfl)
  have eb : idx_main_v26 (idx_main_v27 (ix3 n k d)) = ix1 d :=
    funext fun a => Fin.ext (by match a with | ⟨0, _⟩ => rfl)
  have es : (∑ j : Fin 256, val_main_v1 (F := Ideal) X (lidx_main_v25 (ix3 n k d) j) * A₂ (ridx_main_v25 (ix3 n k d) j))
      = ∑ j : Fin 256, nodeRow X n k 0 j * A₂ (ix2 j d) :=
    Finset.sum_congr rfl fun j _ => by rw [el, er, ref_childHid]; rfl
  rw [eb, es]
  simp only [Ideal.hostDivf_def, Ideal.addf_def, Ideal.hostUnary_exp_def, Ideal.hostNegf_def, Ideal.negf_def, Ideal.ofBits_def]
  exact sigmoid_eq _

theorem ref_mem : val_main_v38 (F := Ideal) X A₁ c₁ A₂ c₂ (ix2 n d)
    = mem (nodeRow X n) (fun j e => A₁ (ix2 j e)) (fun e => c₁ (ix1 e)) (fun j e => A₂ (ix2 j e)) (fun e => c₂ (ix1 e)) d := by
  rw [val_main_v38_apply, val_main_v35_apply, val_main_v37_apply, val_main_cst_6_apply, Fin.sum_univ_two,
    val_main_v36_apply, val_main_v36_apply]
  have e0 : idx_main_v37 (ix2 n d) 0 = ix3 n 0 d := funext fun a => Fin.ext (by match a with | ⟨0, _⟩ => rfl | ⟨1, _⟩ => rfl | ⟨2, _⟩ => rfl)
  have e1 : idx_main_v37 (ix2 n d) 1 = ix3 n 1 d := funext fun a => Fin.ext (by match a with | ⟨0, _⟩ => rfl | ⟨1, _⟩ => rfl | ⟨2, _⟩ => rfl)
  rw [e0, e1, ref_gateIn, ref_gateUpd, ref_forget, ref_forget, ref_childMem, ref_childMem]
  simp only [Ideal.addf_def, Ideal.mulf_def, Ideal.ofBits_def, Ideal.ofBits_zero_f32, zero_add]
  exact (add_assoc _ _ _).symm

end Cert.TreeNode

end
-- ==== Proof.RefNorm.lean ====
/-
  The reference's layer normalisation and its stacked result, read at a node, a result row and a column, over the
  memory row and the output gate as the reference's own earlier stages.
-/
import proofs.«116960_j84791244357740_1_alg».proof.Proof.Gen.ReferenceIdeal.Read
import proofs.«116960_j84791244357740_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

noncomputable section

namespace Cert.TreeNode

open Cert.ReferenceIdeal Cert.ReferenceIdeal.Read Idealize.ShloMosaic Idealize.ShloMosaic.ValueIdx

variable (X : (⟨S131072x2x2x256, .f32⟩ : BufTy).Contents (Elt Ideal)) (A₁ : (⟨S256x768, .f32⟩ : BufTy).Contents (Elt Ideal))
  (c₁ : (⟨S768, .f32⟩ : BufTy).Contents (Elt Ideal)) (A₂ : (⟨S256x256, .f32⟩ : BufTy).Contents (Elt Ideal))
  (c₂ g h : (⟨S256, .f32⟩ : BufTy).Contents (Elt Ideal)) (n : Fin 131072) (d : Fin 256)

/-! ### Where the stages read: a node's row, its one-entry column, the scale's and shift's entry -/

/-- Entry `k` of node `n`'s row, as the row sum's operand index. -/
private theorem idx_sum (z : Fin 1) (k : Fin 256) : idx_main_v39 (idx_main_v40 (ix2 n z)) k = ix2 n k :=
  funext fun a => Fin.ext (by match a with | ⟨0, _⟩ => rfl | ⟨1, _⟩ => rfl)

/-- The mean of stage v38's row `n`: the row's sum from zero, over the word of 256. -/
private theorem ref_mean (z : Fin 1) : val_main_v42 (F := Ideal) X A₁ c₁ A₂ c₂ (ix2 n z)
    = lnMean (fun d' => val_main_v38 (F := Ideal) X A₁ c₁ A₂ c₂ (ix2 n d')) := by
  rw [val_main_v42_apply, val_main_v40_apply, val_main_v41_apply, val_main_cst_8_apply, val_main_v39_apply, val_main_cst_7_apply]
  rw [Ideal.hostDivf_def, Ideal.ofBits_def, Ideal.ofBits_def, Ideal.ofBits_zero_f32, zero_add]
  simp only [idx_sum]
  rfl

/-- The one-entry column of node `n`, as the operand index of the three broadcasts along a row. -/
private theorem idx_col43 : idx_main_v43 (ix2 n d) = ix2 n (0 : Fin 1) :=
  funext fun a => Fin.ext (by match a with | ⟨0, _⟩ => rfl | ⟨1, _⟩ => rfl)
private theorem idx_col50 : idx_main_v50 (ix2 n d) = ix2 n (0 : Fin 1) :=
  funext fun a => Fin.ext (by match a with | ⟨0, _⟩ => rfl | ⟨1, _⟩ => rfl)
private theorem idx_col55 : idx_main_v55 (ix2 n d) = ix2 n (0 : Fin 1) :=
  funext fun a => Fin.ext (by match a with | ⟨0, _⟩ => rfl | ⟨1, _⟩ => rfl)

/-- Entry `k` of node `n`'s row, as the operand index of the sum of squares. -/
private theorem idx_sumsq (z : Fin 1) (k : Fin 256) : idx_main_v46 (idx_main_v47 (ix2 n z)) k = ix2 n k :=
  funext fun a => Fin.ext (by match a with | ⟨0, _⟩ => rfl | ⟨1, _⟩ => rfl)

/-- Entry `d` of the scale and of the shift, as the operand index of their two broadcasts. -/
private theorem idx_scale : idx_main_v57 (idx_main_v58 (ix2 n d)) = ix1 d :=
  funext fun a => Fin.ext (by match a with | ⟨0, _⟩ => rfl)
private theorem idx_shift : idx_main_v60 (idx_main_v61 (ix2 n d)) = ix1 d :=
  funext fun a => Fin.ext (by match a with | ⟨0, _⟩ => rfl)

/-! ### The stages, one at a time -/

/-- The row less its mean (first copy: the one that is squared). -/
private theorem ref_centred : val_main_v44 (F := Ideal) X A₁ c₁ A₂ c₂ (ix2 n d)
    = val_main_v38 (F := Ideal) X A₁ c₁ A₂ c₂ (ix2 n d) - lnMean (fun d' => val_main_v38 (F := Ideal) X A₁ c₁ A₂ c₂ (ix2 n d')) := by
  rw [val_main_v44_apply, val_main_v43_apply, Ideal.subf_def, idx_col43, ref_mean]

/-- The row less its mean (second copy: the one that is scaled). -/
private theorem ref_centred' : val_main_v51 (F := Ideal) X A₁ c₁ A₂ c₂ (ix2 n d)
    = val_main_v38 (F := Ideal) X A₁ c₁ A₂ c₂ (ix2 n d) - lnMean (fun d' => val_main_v38 (F := Ideal) X A₁ c₁ A₂ c₂ (ix2 n d')) := by
  rw [val_main_v51_apply, val_main_v50_apply, Ideal.subf_def, idx_col50, ref_mean]

/-- The variance of row `n`: the sum from zero of the squared differences, over the word of 256. -/
private theorem ref_var (z : Fin 1) : val_main_v49 (F := Ideal) X A₁ c₁ A₂ c₂ (ix2 n z)
    = lnVar (fun d' => val_main_v38 (F := Ideal) X A₁ c₁ A₂ c₂ (ix2 n d')) := by
  rw [val_main_v49_apply, val_main_v47_apply, val_main_v48_apply, val_main_cst_10_apply, val_main_v46_apply, val_main_cst_9_apply]
  rw [Ideal.hostDivf_def, Ideal.ofBits_def, Ideal.ofBits_def, Ideal.ofBits_zero_f32, zero_add]
  simp only [idx_sumsq, val_main_v45_apply, Ideal.mulf_def, ref_centred]
  rfl

/-- The reciprocal root of the variance plus ε. -/
private theorem ref_rstd (z : Fin 1) : val_main_v54 (F := Ideal) X A₁ c₁ A₂ c₂ (ix2 n z)
    = Ideal.rsqrt (lnVar (fun d' => val_main_v38 (F := Ideal) X A₁ c₁ A₂ c₂ (ix2 n d')) + Ideal.ofBits .f32 0x3727C5AC#32) := by
  rw [val_main_v54_apply, val_main_v53_apply, val_main_v52_apply, val_main_cst_11_apply, ref_var]
  rw [Ideal.hostUnary_rsqrt_def, Ideal.addf_def, Ideal.ofBits_def]

theorem ref_norm : val_main_v62 (F := Ideal) X A₁ c₁ A₂ c₂ g h (ix2 n d)
    = lnRow (fun d' => val_main_v38 (F := Ideal) X A₁ c₁ A₂ c₂ (ix2 n d')) (fun e => g (ix1 e)) (fun e => h (ix1 e)) d := by
  rw [val_main_v62_apply, val_main_v59_apply, val_main_v56_apply, val_main_v55_apply, val_main_v58_apply, val_main_v57_apply,
    val_main_v61_apply, val_main_v60_apply]
  rw [idx_col55, idx_scale, idx_shift, ref_centred', ref_rstd]
  rw [Ideal.addf_def, Ideal.mulf_def, Ideal.mulf_def]
  rfl

/-! ### The two result rows, stacked -/

/-- A stack of two one-row pieces read at row 0 is the first piece. -/
private theorem stack_zero {α : Type} (y₁ y₂ : S131072x1x256.Idx → α)
    (hc : Shape.Concatenates [S131072x1x256, S131072x1x256] S131072x2x256 1) (hs : 0 < 2) :
    concatenate S131072x2x256 1 [⟨S131072x1x256, y₁⟩, ⟨S131072x1x256, y₂⟩] hc (ix3 n (⟨0, hs⟩ : Fin 2) d)
      = y₁ (ix3 n (0 : Fin 1) d) :=
  concatenate_pair_apply_left 1 y₁ y₂ hc (ix3 n (⟨0, hs⟩ : Fin 2) d) rfl (ix3 n (0 : Fin 1) d)
    (fun b => match b with | ⟨0, _⟩ => rfl | ⟨1, _⟩ => rfl | ⟨2, _⟩ => rfl)

/-- A stack of two one-row pieces read at row 1 is the second piece. -/
private theorem stack_one {α : Type} (y₁ y₂ : S131072x1x256.Idx → α)
    (hc : Shape.Concatenates [S131072x1x256, S131072x1x256] S131072x2x256 1) (hs : 1 < 2) :
    concatenate S131072x2x256 1 [⟨S131072x1x256, y₁⟩, ⟨S131072x1x256, y₂⟩] hc (ix3 n (⟨1, hs⟩ : Fin 2) d)
      = y₂ (ix3 n (0 : Fin 1) d) :=
  concatenate_pair_apply_right 1 y₁ y₂ hc (ix3 n (⟨1, hs⟩ : Fin 2) d) rfl rfl (ix3 n (0 : Fin 1) d)
    (fun b hb => match b, hb with | ⟨0, _⟩, _ => rfl | ⟨1, _⟩, hb => absurd rfl hb | ⟨2, _⟩, _ => rfl)
    rfl

/-- Row `n`, column `d`, as the operand index of the two pieces' added unit axis. -/
private theorem idx_piece65 : idx_main_v65 (ix3 n (0 : Fin 1) d) = ix2 n d :=
  funext fun a => Fin.ext (by match a with | ⟨0, _⟩ => rfl | ⟨1, _⟩ => rfl)
private theorem idx_piece66 : idx_main_v66 (ix3 n (0 : Fin 1) d) = ix2 n d :=
  funext fun a => Fin.ext (by match a with | ⟨0, _⟩ => rfl | ⟨1, _⟩ => rfl)

theorem ref_stack (s : Fin 2) : val_main_v67 (F := Ideal) X A₁ c₁ A₂ c₂ g h (ix3 n s d)
    = if s.val = 0 then
        val_main_v23 (F := Ideal) X A₁ c₁ (ix2 n d) * Ideal.tanh (val_main_v62 (F := Ideal) X A₁ c₁ A₂ c₂ g h (ix2 n d))
      else val_main_v62 (F := Ideal) X A₁ c₁ A₂ c₂ g h (ix2 n d) := by
  unfold val_main_v67
  match s with
  | ⟨0, hs⟩ =>
    rw [if_pos rfl, stack_zero, val_main_v65_apply, idx_piece65, val_main_v64_apply, val_main_v63_apply,
      Ideal.mulf_def, Ideal.hostUnary_tanh_def]
  | ⟨1, hs⟩ =>
    rw [if_neg (show ¬ ((⟨1, hs⟩ : Fin 2).val = 0) from Nat.one_ne_zero), stack_one, val_main_v66_apply, idx_piece66]

end Cert.TreeNode

end
-- ==== Proof.RefValue.lean ====
/-
  The reference's result array is the whole-array specification of its argument arrays.
-/
import proofs.«116960_j84791244357740_1_alg».proof.Proof.RefMem
import proofs.«116960_j84791244357740_1_alg».proof.Proof.RefNorm
import proofs.«116960_j84791244357740_1_alg».proof.Proof.ArraySpec

noncomputable section

namespace Cert.TreeNode

open Cert.ReferenceIdeal Cert.ReferenceIdeal.Read Idealize.ShloMosaic Idealize.ShloMosaic.ValueIdx

theorem ref_whole (X : (⟨S131072x2x2x256, .f32⟩ : BufTy).Contents (Elt Ideal)) (A₁ : (⟨S256x768, .f32⟩ : BufTy).Contents (Elt Ideal))
    (c₁ : (⟨S768, .f32⟩ : BufTy).Contents (Elt Ideal)) (A₂ : (⟨S256x256, .f32⟩ : BufTy).Contents (Elt Ideal))
    (c₂ g h : (⟨S256, .f32⟩ : BufTy).Contents (Elt Ideal)) :
    val_main_v67 (F := Ideal) X A₁ c₁ A₂ c₂ g h = wholeOut X A₁ c₁ A₂ c₂ g h := by
  funext i
  obtain ⟨n, s, d, rfl⟩ : ∃ (n : Fin 131072) (s : Fin 2) (d : Fin 256), i = ix3 n s d := ⟨i 0, i 1, i 2, eq_ix3 i⟩
  have hm : (fun d' => val_main_v38 (F := Ideal) X A₁ c₁ A₂ c₂ (ix2 n d'))
      = mem (nodeRow X n) (fun j e => A₁ (ix2 j e)) (fun e => c₁ (ix1 e)) (fun j e => A₂ (ix2 j e)) (fun e => c₂ (ix1 e)) :=
    funext fun d' => ref_mem X A₁ c₁ A₂ c₂ n d'
  rw [wholeOut_apply, ref_stack, ref_norm, ref_gateOut, hm]
  unfold Cert.TreeNode.out Cert.TreeNode.hid Cert.TreeNode.norm
  by_cases hs : s.val = 0
  · rw [if_pos hs, if_pos hs]; rfl
  · rw [if_neg hs, if_neg hs]; rfl

end Cert.TreeNode

end
-- ==== Proof.lean ====
/-
  The child-sum tree cell with a layer normalisation, as one fused kernel over blocks of 1024 nodes, against its
  array-level reference: both compute, for every node `n`, the two result rows of ONE node function
  (Proof/NodeSpec.lean) of node `n` of the input and of the parameters.

  Per node, with `hs` the sum of the two children's hidden rows: the gates' pre-activations `hs · W₁ + b₁`, the input
  and output gates by the logistic function and the update by tanh, one forget gate per child
  `logistic (h_k · W₂ + b₂)`, the memory row `in · upd + Σ_k fg_k · c_k`, its layer normalisation over the 256
  entries (mean and biased variance with the divisor 256, `rsqrt (var + ε)`, scale and shift), and the hidden row
  `out · tanh` of it. On the extended reals the two programs differ only in arrangement: the kernel multiplies the
  weight matrices as stored in the narrower float format (the same array there), takes each child's forget gate by
  its own matrix product where the reference takes one product over both children, writes the logistic function as
  one operation where the reference spells `1 / (1 + e^(−x))` (its definition), and adds the two children's terms to
  the first product one after the other where the reference sums them from zero first (addition of extended reals
  is associative and `0 + a = a`). No step moves a factor across a sum, so no entry needs to be finite and the
  precondition is never opened.

  The kernel's side: the body's values at a row and a column (Proof/GateValue.lean, Proof/NormValue.lean), the block
  its two stores leave (Proof/BlockValue.lean), and the 128 blocks as the whole result array
  (Proof/ArrayValue.lean, over the kernel's run with its result array named block by block). The reference's side:
  its stages read at an index (Proof/RefMem.lean, Proof/RefNorm.lean) and composed (Proof/RefValue.lean), over the
  reference's run. The frames are the kernel's run with the result dropped and the reference's likewise; the
  idealisation rewrote nothing.
-/
import proofs.«116960_j84791244357740_1_alg».proof.Defs
import proofs.«116960_j84791244357740_1_alg».proof.Proof.Gen.Kernel
import proofs.«116960_j84791244357740_1_alg».proof.Proof.Gen.Kernel.Skeleton
import proofs.«116960_j84791244357740_1_alg».proof.Proof.Gen.Kernel.Launch
import proofs.«116960_j84791244357740_1_alg».proof.Proof.Gen.Kernel.Points
import proofs.«116960_j84791244357740_1_alg».proof.Proof.Gen.Kernel.Frame
import proofs.«116960_j84791244357740_1_alg».proof.Proof.Gen.KernelIdeal
import proofs.«116960_j84791244357740_1_alg».proof.Proof.Gen.KernelIdeal.Skeleton
import proofs.«116960_j84791244357740_1_alg».proof.Proof.Gen.KernelIdeal.Launch
import proofs.«116960_j84791244357740_1_alg».proof.Proof.Gen.KernelIdeal.Points
import proofs.«116960_j84791244357740_1_alg».proof.Proof.Gen.KernelIdeal.Frame
import proofs.«116960_j84791244357740_1_alg».proof.Proof.Gen.ReferenceIdeal
import proofs.«116960_j84791244357740_1_alg».proof.Proof.Gen.Pre_finite_inputs
import proofs.«116960_j84791244357740_1_alg».proof.Proof.Gen.KernelIdeal.Value
import proofs.«116960_j84791244357740_1_alg».proof.Proof.Gen.ReferenceIdeal.Run
import proofs.«116960_j84791244357740_1_alg».proof.Proof.Gen.ReferenceIdeal.Read
import proofs.«116960_j84791244357740_1_alg».proof.Proof.ArrayValue
import proofs.«116960_j84791244357740_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the whole-array
    specification of the arguments: node by node the same function. -/
theorem algebraic : Cert.algebraic_KernelIdeal_ReferenceIdeal := by
  intro m ρ m' ρ' _ hagree
  refine ⟨fun c => Cert.TreeNode.target m c, Cert.TreeNode.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.TreeNode.ref_whole]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
